-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 84
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S64x64, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S64x64, .f32⟩
  | .hbm, ⟨65, _⟩ => ⟨S1x64, .f32⟩
  | .hbm, ⟨66, _⟩ => ⟨S100000x64, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x64, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S64x64_S64x64_1_0 : S64x64.Transposes [1, 0] S64x64
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S64x64, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .f32⟩
  | .hbm, ⟨70, _⟩ => ⟨S64x64, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S64x64_S64x64_1_0 : S64x64.Transposes [1, 0] S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/- The two-layer graph convolution as ONE function of the six argument arrays, in named pieces.
   With E = 1600000 edges over N = 100000 nodes, every node is given a self loop: the source and target index
   vectors have length E + N. The degree of a node counts the entries of the target vector that name it; an edge
   (or loop) from s to t carries the weight deg(s)^(-1/2) * deg(t)^(-1/2), read through jnp's indexing (an index
   below zero is taken from the end; the gather itself clamps). One propagation step sends the feature matrix h to
   the matrix whose row t is the sum, over the entries with target t, of weight * (row source of h). A layer is a
   linear map (h times the transposed weight matrix), a propagation step and a bias; between the two layers the
   negative entries are cut to zero. Every piece is stated for any float family: nothing here is evaluated. -/
import proofs.«409012_j68178310856719_3_alg».proof.Proof.Gen.ReferenceIdeal

noncomputable section

namespace Cert.Gcn

open Cert.ReferenceIdeal Cert.ReferenceIdeal.Gen Idealize.ShloMosaic

variable {F : FTy → Type} [FloatOps F]

/-- The sources: row 0 of the edge list, then every node once (its self loop). -/
def srcIdx (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The targets: row 1 of the edge list, then every node once. -/
def dstIdx (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- An index below zero counts from the end: r + N where r < 0, else r. -/
def wrapIdx (r : IVec S1700000 32) : IVec S1700000 32 :=
  select (cmpi .slt r (broadcastInDim S1700000 ![] bcast_S_S1700000 (constantI S_ 32 0#32))) (addi r (broadcastInDim S1700000 ![] bcast_S_S1700000 (constantI S_ 32 100000#32))) r

/-- How many entries of the target vector name each node: ones added at the targets. -/
def degree (col : IVec S1700000 32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 col) (broadcastInDim S1700000 ![] bcast_S_S1700000 (constant S_ .f32 0x3F800000#32))

/-- deg^(-1/2) where the degree is above zero, zero elsewhere. -/
def invSqrtDegree (col : IVec S1700000 32) : FVec F S100000 .f32 :=
  select (cmpf (F := F) .ogt (degree col) (broadcastInDim S100000 ![] bcast_S_S100000 (constant S_ .f32 0x00000000#32))) (Host.rsqrt (degree col)) (broadcastInDim S100000 ![] bcast_S_S100000 (id (constant S_ .f32 0x00000000#32)))

/-- The weight of each entry, as a column: deg(source)^(-1/2) * deg(target)^(-1/2). -/
def edgeWeight (row col : IVec S1700000 32) : FVec F S1700000x1 .f32 :=
  (broadcastInDim S1700000x1 ![0] bcast_S1700000_S1700000x1_0 (mulf (Host.gather gather_S100000_S1700000x1_S1700000_n_0_n_n_0_1_1 (invSqrtDegree col) (broadcastInDim S1700000x1 ![0] bcast_S1700000_S1700000x1_0 (wrapIdx row))) (Host.gather gather_S100000_S1700000x1_S1700000_n_0_n_n_0_1_1 (invSqrtDegree col) (broadcastInDim S1700000x1 ![0] bcast_S1700000_S1700000x1_0 (wrapIdx col)))))

/-- One propagation step: row t of the result is the sum over the entries with target t of
    weight * (row source of h). -/
def propagate (row col : IVec S1700000 32) (wt : FVec F S1700000x1 .f32) (h : FVec F S100000x64 .f32) : FVec F S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 col) (mulf (Host.gather gather_S100000x64_S1700000x1_S1700000x64_1_0_n_n_0_1_164 h (broadcastInDim S1700000x1 ![0] bcast_S1700000_S1700000x1_0 (wrapIdx row))) (broadcastInDim S1700000x64 ![0, 1] bcast_S1700000x1_S1700000x64_0_1 wt))

/-- The linear map of a layer: h times a 64 x 64 matrix (the layer's weights, already transposed). -/
def linear (h : FVec F S100000x64 .f32) (wT : FVec F S64x64 .f32) : FVec F S100000x64 .f32 :=
  Host.dotGeneral dot_S100000x64_S64x64_S100000x64_1_0_0_1_n_n none h wT

/-- A bias row, given as a 1 x 64 array, added to every row. -/
def addRow (a : FVec F S100000x64 .f32) (b : FVec F S1x64 .f32) : FVec F S100000x64 .f32 :=
  addf a (broadcastInDim S100000x64 ![0, 1] bcast_S1x64_S100000x64_0_1 b)

/-- Negative entries cut to zero. -/
def relu (a : FVec F S100000x64 .f32) : FVec F S100000x64 .f32 :=
  maximumf a (broadcastInDim S100000x64 ![] bcast_S_S100000x64 (constant S_ .f32 0x00000000#32))

/-- The network: two layers over one graph, the first followed by the cut at zero. -/
def gcn (x : FVec F S100000x64 .f32) (e : IVec S2x1600000 32) (w1 : FVec F S64x64 .f32) (b1 : FVec F S64 .f32)
    (w2 : FVec F S64x64 .f32) (b2 : FVec F S64 .f32) : FVec F S100000x64 .f32 :=
  addRow (propagate (srcIdx e) (dstIdx e) (edgeWeight (srcIdx e) (dstIdx e))
      (linear (relu (addRow (propagate (srcIdx e) (dstIdx e) (edgeWeight (srcIdx e) (dstIdx e))
          (linear x (transpose S64x64 [1, 0] w1 transposes_S64x64_S64x64_1_0)))
        (broadcastInDim S1x64 ![1] bcast_S64_S1x64_1 b1)))
      (transpose S64x64 [1, 0] w2 transposes_S64x64_S64x64_1_0)))
    (broadcastInDim S1x64 ![1] bcast_S64_S1x64_1 b2)

end Cert.Gcn

end
-- ==== Proof.RefIsGcn.lean ====
/- The reference's composed term is the network of its six argument arrays: the reference program applies, operation
   by operation, exactly the pieces the specification names (the two index vectors, the degree and its inverse
   square root, the edge weights, a linear map, a propagation step and a bias per layer, the cut at zero between
   them), so unfolding the names on both sides leaves one term. -/
import proofs.«409012_j68178310856719_3_alg».proof.Proof.RefRun
import proofs.«409012_j68178310856719_3_alg».proof.Proof.Spec

noncomputable section

namespace Cert.Gcn

open Cert.ReferenceIdeal Cert.ReferenceIdeal.Gen Idealize.ShloMosaic Idealize.ShloMosaic.TcCoe Idealize.SL.Sem

variable {F : FTy → Type} [FloatOps F]

set_option maxRecDepth 8192 in
/-- What the reference's run leaves in its result buffer is `gcn` of the launch contents of the six arguments. -/
theorem ref_eq_gcn (m : (ℓ : Loc nD τ sig) → Buf (Elt F) ℓ) (c : Dev nD) :
    Cert.ReferenceIdeal.RunValue.res_main_v66 m c
      = gcn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.RunValue.res_main_v66 gcn addRow relu linear propagate edgeWeight invSqrtDegree degree wrapIdx srcIdx dstIdx
  rfl

end Cert.Gcn

end
-- ==== Proof.DotRows.lean ====
/- A matrix product read at one entry, on the extended reals: entry (p, q) of (rows) x (64 x 64 matrix) is the sum over
   k < 64 of (row p, entry k) times (matrix entry (k, q)) — for the kernel's product of a 10000-row block into a zero
   accumulator and for the whole-array linear map of the specification alike. Both are the same kind of sum; only the
   number of rows differs, which the sum does not see. -/
import proofs.«409012_j68178310856719_3_alg».proof.Proof.Gen.KernelIdeal
import proofs.«409012_j68178310856719_3_alg».proof.Proof.Spec
import Idealize.ShloMosaic.Lib.ValueIdx
import Idealize.ShloMosaic.PureOps.Ideal.Laws

noncomputable section

namespace Cert.Gcn

open Idealize.ShloMosaic

/-! ## A 10000-row block times the matrix -/

section Block

open Cert.KernelIdeal Cert.KernelIdeal.Gen

theorem blk_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem blk_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem blk_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem blk_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry k of the row of the block's entry i. -/
abbrev blkRow (i : S10000x64.Idx) (k : Fin 64) : S10000x64.Idx := fun a => match a with
  | ⟨0, _⟩ => ⟨(i 0).val, (i 0).isLt⟩
  | ⟨1, _⟩ => ⟨k.val, k.isLt⟩
/-- Entry k of the matrix's column of the block's entry i. -/
abbrev blkCol (i : S10000x64.Idx) (k : Fin 64) : S64x64.Idx := fun a => match a with
  | ⟨0, _⟩ => ⟨k.val, k.isLt⟩
  | ⟨1, _⟩ => ⟨(i 1).val, (i 1).isLt⟩

/-- The block's product into the zero accumulator, at an entry: the sum of row times column. -/
theorem block_matmul_apply (x : FVec Ideal S10000x64 .f32) (w : FVec Ideal S64x64 .f32) (i : S10000x64.Idx) :
    matmul dot_S10000x64_S64x64_S10000x64_1_0_0_1_n_n none x w (constant (F := Ideal) S10000x64 .f32 0x00000000#32) i
      = ∑ k : Fin 64, x (blkRow i k) * w (blkCol i k) := by
  simp only [matmul]
  rw [Ideal.matmul_constant_zero_apply]
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx i ((ValueIdx.contrEquiv1 dot_S10000x64_S64x64_S10000x64_1_0_0_1_n_n 64 rfl rfl).symm k) = blkRow i k := funext fun a => Fin.ext (by
    match a with
    | ⟨0, _⟩ => exact blk_lhs_0 _ _
    | ⟨1, _⟩ => exact (blk_lhs_1 _ _).trans hk)
  have er : dot_S10000x64_S64x64_S10000x64_1_0_0_1_n_n.rhsIdx i ((ValueIdx.contrEquiv1 dot_S10000x64_S64x64_S10000x64_1_0_0_1_n_n 64 rfl rfl).symm k) = blkCol i k := funext fun a => Fin.ext (by
    match a with
    | ⟨0, _⟩ => exact (blk_rhs_0 _ _).trans hk
    | ⟨1, _⟩ => exact blk_rhs_1 _ _)
  rw [el, er]

end Block

/-! ## The whole array times the matrix -/

section Whole

open Cert.ReferenceIdeal Cert.ReferenceIdeal.Gen

theorem arr_lhs_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem arr_lhs_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem arr_rhs_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem arr_rhs_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- Entry k of the row of the array's entry i. -/
abbrev arrRow (i : S100000x64.Idx) (k : Fin 64) : S100000x64.Idx := fun a => match a with
  | ⟨0, _⟩ => ⟨(i 0).val, (i 0).isLt⟩
  | ⟨1, _⟩ => ⟨k.val, k.isLt⟩
/-- Entry k of the matrix's column of the array's entry i. -/
abbrev arrCol (i : S100000x64.Idx) (k : Fin 64) : S64x64.Idx := fun a => match a with
  | ⟨0, _⟩ => ⟨k.val, k.isLt⟩
  | ⟨1, _⟩ => ⟨(i 1).val, (i 1).isLt⟩

/-- The specification's linear map at an entry: the sum of row times column. -/
theorem linear_apply (h : FVec Ideal S100000x64 .f32) (wT : FVec Ideal S64x64 .f32) (i : S100000x64.Idx) :
    linear h wT i = ∑ k : Fin 64, h (arrRow i k) * wT (arrCol i k) := by
  unfold linear
  simp only [Host.dotGeneral]
  rw [Ideal.dotGeneral_apply]
  rw [← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = arrRow i k := funext fun a => Fin.ext (by
    match a with
    | ⟨0, _⟩ => exact arr_lhs_0 _ _
    | ⟨1, _⟩ => exact (arr_lhs_1 _ _).trans hk)
  have er : dot_S100000x64_S64x64_S100000x64_1_0_0_1_n_n.rhsIdx i ((ValueIdx.contrEquiv1 dot_S100000x64_S64x64_S100000x64_1_0_0_1_n_n 64 rfl rfl).symm k) = arrCol i k := funext fun a => Fin.ext (by
    match a with
    | ⟨0, _⟩ => exact (arr_rhs_0 _ _).trans hk
    | ⟨1, _⟩ => exact arr_rhs_1 _ _)
  rw [el, er]

end Whole

end Cert.Gcn

end
-- ==== Proof.Region0.lean ====
/- What the first pallas_call leaves in its output array, whatever the buffers hold when it is entered: the rows of
   the first input array are cut into ten blocks of 10000 rows, each block is multiplied by the 64 x 64 matrix held in
   the second input array into a zero accumulator, and block t of the output receives the product. Entry (p, q) of a
   block's product is the sum over k of (block row p, entry k) times (matrix entry (k, q)); row p of block t is row
   10000 t + p of the array; so the ten blocks written back are the ten row blocks of ONE whole-array linear map, they
   tile the output, and the output array ends holding that linear map of the two input arrays. -/
import proofs.«409012_j68178310856719_3_alg».proof.Proof.Gen.KernelIdeal.Frame
import proofs.«409012_j68178310856719_3_alg».proof.Proof.DotRows
import Idealize.ShloMosaic.Lib.Pipeline.Value

noncomputable section

namespace Cert.Gcn.Region0

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one store, at an entry: the loaded block's row times the loaded matrix's column. -/
theorem pay_apply (x0 : Vec Ideal S10000x64 .f32) (x1 : Vec Ideal S64x64 .f32) (j : S10000x64.Idx) :
    k0_pay1 (F := Ideal) x0 x1 j = ∑ k : Fin 64, x0 (blkRow j k) * x1 (blkCol j k) := by
  unfold k0_pay1
  rw [shapeCast_self]
  exact block_matmul_apply x0 x1 j

/-- The index maps over the ten points: the input's and the output's row blocks move together, their column block is
    the only one, and the matrix is always its one block. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every one of the ten row blocks of the output is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- Entry k of row j of the input block at point t is entry k of the array's row under the output block's entry j. -/
theorem x_read (c : Dev nD) (t : Fin cfg0.N) (j : S10000x64.Idx) (k : Fin 64) :
    iblk0 V c 0 t (blkRow j k) = V c main_arg0 (arrRow (((cfg0.win 2).blk t).view.emb j) k) := by
  obtain ⟨e0, e1, e2, e3, e4⟩ := idx_facts t
  show V c main_arg0 (((cfg0.win 0).blk t).view.emb (blkRow j k)) = _
  refine congrArg (V c main_arg0) (funext fun a => Fin.ext ?_)
  match a with
  | ⟨0, _⟩ =>
    show win0_0.index t (0 : Fin 2) * 10000 + 1 * (j 0).val = win0_2.index t (0 : Fin 2) * 10000 + 1 * (j 0).val
    rw [e0]
  | ⟨1, _⟩ =>
    show win0_0.index t (1 : Fin 2) * 64 + 1 * k.val = k.val
    rw [e1]; omega

/-- Entry k of the matrix block's column under j is the matrix array's entry (k, column of j). -/
theorem w_read (c : Dev nD) (t : Fin cfg0.N) (j : S10000x64.Idx) (k : Fin 64) :
    iblk0 V c 1 t (blkCol j k) = V c main_v31 (arrCol (((cfg0.win 2).blk t).view.emb j) k) := by
  obtain ⟨e0, e1, e2, e3, e4⟩ := idx_facts t
  show V c main_v31 (((cfg0.win 1).blk t).view.emb (blkCol j k)) = _
  refine congrArg (V c main_v31) (funext fun a => Fin.ext ?_)
  match a with
  | ⟨0, _⟩ =>
    show win0_1.index t (0 : Fin 2) * 64 + 1 * k.val = k.val
    rw [e2]; omega
  | ⟨1, _⟩ =>
    show win0_1.index t (1 : Fin 2) * 64 + 1 * (j 1).val = win0_2.index t (1 : Fin 2) * 64 + 1 * (j 1).val
    rw [e3, e4]

/-- What point t writes back is block t of the linear map of the two input arrays. -/
theorem flushed_eq (c : Dev nD) (t : Fin cfg0.N) :
    (dat0 V c).flushed 2 t
      = ((cfg0.win 2).blk t).view.read (Elt Ideal) (linear (F := Ideal) (V c main_arg0) (V c main_v31)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  funext j
  show k0_pay1 (iblk0 V c 0 t) (iblk0 V c 1 t) j
    = linear (F := Ideal) (V c main_arg0) (V c main_v31) (((cfg0.win 2).blk t).view.emb j)
  refine (pay_apply _ _ j).trans ?_
  refine Eq.trans ?_ (linear_apply _ _ _).symm
  exact Finset.sum_congr rfl fun k _ => congrArg₂ (· * ·) (x_read V c t j k) (w_read V c t j k)

/-- An entry of the output array is in point t's block iff its row is among the block's 10000 rows. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- The ten blocks tile the output: row r lies in block r / 10000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- The output array after the region: the linear map of the two input arrays as the region found them. -/
theorem array_eq (c : Dev nD) :
    (dat0 V c).arrAt 2 cfg0.N = linear (F := Ideal) (V c main_arg0) (V c main_v31) :=
  (dat0 V c).arrAt_eq_of_cover 2 _ (fun t _ => flushed_eq V c t) (cover)

end Cert.Gcn.Region0

end
-- ==== Proof.BiasRows.lean ====
/- A bias row added to every row, read at one entry: entry (p, q) of (rows + the 1 x 64 row broadcast over them) is the
   rows' entry (p, q) plus the row's entry (0, q) — for the kernel's 10000-row block, where the row is broadcast by the
   vector broadcast, and for the whole array of the specification, where it is broadcast along the row axis. Cutting at
   zero is entry by entry. -/
import proofs.«409012_j68178310856719_3_alg».proof.Proof.Gen.KernelIdeal
import proofs.«409012_j68178310856719_3_alg».proof.Proof.Spec
import Idealize.ShloMosaic.Lib.Pipeline.Value
import Idealize.ShloMosaic.Lib.ValueIdx

noncomputable section

namespace Cert.Gcn

open Idealize.ShloMosaic

/-! ## A 10000-row block plus the row -/

section Block

open Cert.KernelIdeal Cert.KernelIdeal.Gen

/-- The bias row's entry over the block's entry j: (0, column of j). -/
abbrev blkBias (j : S10000x64.Idx) : S1x64.Idx := fun a => match a with
  | ⟨0, _⟩ => ⟨0, Nat.one_pos⟩
  | ⟨1, _⟩ => ⟨(j 1).val, (j 1).isLt⟩

/-- The row broadcast over the block, at an entry. -/
theorem block_row_apply (x1 : Vec Ideal S1x64 .f32) (h : S1x64.Broadcasts S10000x64) (j : S10000x64.Idx) :
    broadcastTo S10000x64 x1 h j = x1 (blkBias j) := by
  refine broadcastTo_apply x1 h j (blkBias j) fun a => ?_
  match a with
  | ⟨0, _⟩ => rfl
  | ⟨1, _⟩ =>
    show (j 1).val = if (64 : Nat) = 1 then 0 else (j 1).val
    rw [if_neg (by decide)]

end Block

/-! ## The whole array plus the row -/

section Whole

open Cert.ReferenceIdeal Cert.ReferenceIdeal.Gen

/-- The bias row's entry over the array's entry i: (0, column of i). -/
abbrev arrBias (i : S100000x64.Idx) : S1x64.Idx := fun a => match a with
  | ⟨0, _⟩ => ⟨0, Nat.one_pos⟩
  | ⟨1, _⟩ => ⟨(i 1).val, (i 1).isLt⟩

/-- The specification's bias step at an entry. -/
theorem addRow_apply (a : FVec Ideal S100000x64 .f32) (b : FVec Ideal S1x64 .f32) (i : S100000x64.Idx) :
    addRow a b i = a i + b (arrBias i) := by
  unfold addRow
  show a i + broadcastInDim S100000x64 ![0, 1] bcast_S1x64_S100000x64_0_1 b i = _
  refine congrArg (a i + ·) (broadcastInDim_apply _ _ b i (arrBias i) fun ax => ?_)
  match ax with
  | ⟨0, _⟩ => rfl
  | ⟨1, _⟩ =>
    show (i 1).val = if (64 : Nat) = 1 then 0 else (i 1).val
    rw [if_neg (by decide)]

/-- The specification's cut at zero at an entry. -/
theorem relu_apply (a : FVec Ideal S100000x64 .f32) (i : S100000x64.Idx) :
    relu a i = max (a i) (Ideal.ofBits .f32 0x00000000#32) := rfl

end Whole

end Cert.Gcn

end
-- ==== Proof.Region1.lean ====
/- What the second pallas_call leaves in its output array, whatever the buffers hold when it is entered: each of the ten
   10000-row blocks of the first input array receives the 1 x 64 row of the second input array on every row, is cut at
   zero entry by entry, and is multiplied by the 64 x 64 matrix of the third input array into a zero accumulator; block
   t of the output receives the product. Entry (p, q) of a block's product is the sum over k of
   max (block entry (p, k) + row entry (0, k), 0) times the matrix entry (k, q); the blocks written back are the ten row
   blocks of ONE whole-array map (bias, cut at zero, linear map), they tile the output, and the output array ends
   holding that map of the three input arrays. -/
import proofs.«409012_j68178310856719_3_alg».proof.Proof.Gen.KernelIdeal.Frame
import proofs.«409012_j68178310856719_3_alg».proof.Proof.DotRows
import proofs.«409012_j68178310856719_3_alg».proof.Proof.BiasRows
import Idealize.ShloMosaic.Lib.Pipeline.Value

noncomputable section

namespace Cert.Gcn.Region1

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one store, at an entry: the sum over k of the biased, cut block row times the matrix column. -/
theorem pay_apply (x0 : Vec Ideal S10000x64 .f32) (x1 : Vec Ideal S1x64 .f32) (x2 : Vec Ideal S64x64 .f32) (j : S10000x64.Idx) :
    k1_pay1 (F := Ideal) x0 x1 x2 j
      = ∑ k : Fin 64, max (x0 (blkRow j k) + x1 (blkBias (blkRow j k))) (Ideal.ofBits .f32 0x00000000#32) * x2 (blkCol j k) := by
  unfold k1_pay1
  rw [shapeCast_self, shapeCast_self, shapeCast_self]
  refine (block_matmul_apply _ x2 j).trans ?_
  refine Finset.sum_congr rfl fun k _ => ?_
  exact congrArg (fun z => max (x0 (blkRow j k) + z) (Ideal.ofBits .f32 0x00000000#32) * x2 (blkCol j k))
    (block_row_apply x1 _ (blkRow j k))

/-- The index maps over the ten points: the input's and the output's row blocks move together, their column block is
    the only one, and the row and the matrix are always their one block. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 :=
  (by decide +kernel : ∀ t : Fin grid1.N, _)

/-- Every one of the ten row blocks of the output is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- Entry k of row j of the input block at point t is entry k of the array's row under the output block's entry j. -/
theorem a_read (c : Dev nD) (t : Fin cfg1.N) (j : S10000x64.Idx) (k : Fin 64) :
    iblk1 V c 0 t (blkRow j k) = V c main_v44 (arrRow (((cfg1.win 3).blk t).view.emb j) k) := by
  obtain ⟨e0, e1, e2, e3, e4, e5, e6⟩ := idx_facts t
  show V c main_v44 (((cfg1.win 0).blk t).view.emb (blkRow j k)) = _
  refine congrArg (V c main_v44) (funext fun a => Fin.ext ?_)
  match a with
  | ⟨0, _⟩ =>
    show win1_0.index t (0 : Fin 2) * 10000 + 1 * (j 0).val = win1_3.index t (0 : Fin 2) * 10000 + 1 * (j 0).val
    rw [e0]
  | ⟨1, _⟩ =>
    show win1_0.index t (1 : Fin 2) * 64 + 1 * k.val = k.val
    rw [e1]; omega

/-- The row block's entry k is the row array's entry k. -/
theorem b_read (c : Dev nD) (t : Fin cfg1.N) (j : S10000x64.Idx) (k : Fin 64) :
    iblk1 V c 1 t (blkBias (blkRow j k)) = V c main_v46 (arrBias (arrRow (((cfg1.win 3).blk t).view.emb j) k)) := by
  obtain ⟨e0, e1, e2, e3, e4, e5, e6⟩ := idx_facts t
  show V c main_v46 (((cfg1.win 1).blk t).view.emb (blkBias (blkRow j k))) = _
  refine congrArg (V c main_v46) (funext fun a => Fin.ext ?_)
  match a with
  | ⟨0, _⟩ =>
    show win1_1.index t (0 : Fin 2) * 1 + 1 * 0 = 0
    rw [e2]
  | ⟨1, _⟩ =>
    show win1_1.index t (1 : Fin 2) * 64 + 1 * k.val = k.val
    rw [e3]; omega

/-- Entry k of the matrix block's column under j is the matrix array's entry (k, column of j). -/
theorem w_read (c : Dev nD) (t : Fin cfg1.N) (j : S10000x64.Idx) (k : Fin 64) :
    iblk1 V c 2 t (blkCol j k) = V c main_v45 (arrCol (((cfg1.win 3).blk t).view.emb j) k) := by
  obtain ⟨e0, e1, e2, e3, e4, e5, e6⟩ := idx_facts t
  show V c main_v45 (((cfg1.win 2).blk t).view.emb (blkCol j k)) = _
  refine congrArg (V c main_v45) (funext fun a => Fin.ext ?_)
  match a with
  | ⟨0, _⟩ =>
    show win1_2.index t (0 : Fin 2) * 64 + 1 * k.val = k.val
    rw [e4]; omega
  | ⟨1, _⟩ =>
    show win1_2.index t (1 : Fin 2) * 64 + 1 * (j 1).val = win1_3.index t (1 : Fin 2) * 64 + 1 * (j 1).val
    rw [e5, e6]

/-- What point t writes back is block t of (bias, cut at zero, linear map) of the three input arrays. -/
theorem flushed_eq (c : Dev nD) (t : Fin cfg1.N) :
    (dat1 V c).flushed 3 t
      = ((cfg1.win 3).blk t).view.read (Elt Ideal)
          (linear (F := Ideal) (relu (addRow (V c main_v44) (V c main_v46))) (V c main_v45)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x64) hz]
  funext j
  show k1_pay1 (iblk1 V c 0 t) (iblk1 V c 1 t) (iblk1 V c 2 t) j
    = linear (F := Ideal) (relu (addRow (V c main_v44) (V c main_v46))) (V c main_v45) (((cfg1.win 3).blk t).view.emb j)
  refine (pay_apply _ _ _ j).trans ?_
  refine Eq.trans ?_ (linear_apply _ _ _).symm
  refine Finset.sum_congr rfl fun k _ => ?_
  refine congrArg₂ (· * ·) ?_ (w_read V c t j k)
  refine Eq.trans ?_ (relu_apply _ _).symm
  refine congrArg (max · (Ideal.ofBits .f32 0x00000000#32)) ?_
  refine Eq.trans ?_ (addRow_apply _ _ _).symm
  exact congrArg₂ (· + ·) (a_read V c t j k) (b_read V c t j k)

/-- An entry of the output array is in point t's block iff its row is among the block's 10000 rows. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v47).slice (win1_3.rect t)).set ↔ _
  rw [View.set_slice_whole, Rect.mem_set_unit]
  exact Iff.rfl

/-- The ten blocks tile the output: row r lies in block r / 10000. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 64 ≤ (i 1).val ∧ (i 1).val < win1_3.index t (1 : Fin 2) * 64 + 64
    omega

/-- The output array after the region: (bias, cut at zero, linear map) of the three input arrays as the region found them. -/
theorem array_eq (c : Dev nD) :
    (dat1 V c).arrAt 3 cfg1.N = linear (F := Ideal) (relu (addRow (V c main_v44) (V c main_v46))) (V c main_v45) :=
  (dat1 V c).arrAt_eq_of_cover 3 _ (fun t _ => flushed_eq V c t) (cover)

end Cert.Gcn.Region1

end
-- ==== Proof.Region2.lean ====
/- What the third pallas_call leaves in its output array, whatever the buffers hold when it is entered: each of the ten
   10000-row blocks of the first input array receives the 1 x 64 row held in the second input array, added to every
   one of its rows, and block t of the output receives the sum. Entry (p, q) of a block's sum is the block's entry
   (p, q) plus the row's entry (0, q); the blocks written back are the ten row blocks of ONE whole-array bias step,
   they tile the output, and the output array ends holding the first input array with the row added to every row. -/
import proofs.«409012_j68178310856719_3_alg».proof.Proof.Gen.KernelIdeal.Frame
import proofs.«409012_j68178310856719_3_alg».proof.Proof.BiasRows
import Idealize.ShloMosaic.Lib.Pipeline.Value

noncomputable section

namespace Cert.Gcn.Region2

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one store, at an entry: the loaded block's entry plus the loaded row's entry over it. -/
theorem pay_apply (x0 : Vec Ideal S10000x64 .f32) (x1 : Vec Ideal S1x64 .f32) (j : S10000x64.Idx) :
    k2_pay1 (F := Ideal) x0 x1 j = x0 j + x1 (blkBias j) := by
  unfold k2_pay1
  rw [shapeCast_self, shapeCast_self]
  exact congrArg (x0 j + ·) (block_row_apply x1 _ j)

/-- The index maps over the ten points: the input's and the output's row blocks move together, their column block is
    the only one, and the row is always its one block. -/
theorem idx_facts : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 :=
  (by decide +kernel : ∀ t : Fin grid2.N, _)

/-- Every one of the ten row blocks of the output is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- Entry j of the input block at point t is the array's entry under the output block's entry j. -/
theorem a_read (c : Dev nD) (t : Fin cfg2.N) (j : S10000x64.Idx) :
    iblk2 V c 0 t j = V c main_v59 (((cfg2.win 2).blk t).view.emb j) := by
  obtain ⟨e0, e1, e2, e3, e4⟩ := idx_facts t
  show V c main_v59 (((cfg2.win 0).blk t).view.emb j) = _
  refine congrArg (V c main_v59) (funext fun a => Fin.ext ?_)
  match a with
  | ⟨0, _⟩ =>
    show win2_0.index t (0 : Fin 2) * 10000 + 1 * (j 0).val = win2_2.index t (0 : Fin 2) * 10000 + 1 * (j 0).val
    rw [e0]
  | ⟨1, _⟩ =>
    show win2_0.index t (1 : Fin 2) * 64 + 1 * (j 1).val = win2_2.index t (1 : Fin 2) * 64 + 1 * (j 1).val
    rw [e1, e4]

/-- The row block's entry over j is the row array's entry over the output block's entry j. -/
theorem b_read (c : Dev nD) (t : Fin cfg2.N) (j : S10000x64.Idx) :
    iblk2 V c 1 t (blkBias j) = V c main_v60 (arrBias (((cfg2.win 2).blk t).view.emb j)) := by
  obtain ⟨e0, e1, e2, e3, e4⟩ := idx_facts t
  show V c main_v60 (((cfg2.win 1).blk t).view.emb (blkBias j)) = _
  refine congrArg (V c main_v60) (funext fun a => Fin.ext ?_)
  match a with
  | ⟨0, _⟩ =>
    show win2_1.index t (0 : Fin 2) * 1 + 1 * 0 = 0
    rw [e2]
  | ⟨1, _⟩ =>
    show win2_1.index t (1 : Fin 2) * 64 + 1 * (j 1).val = win2_2.index t (1 : Fin 2) * 64 + 1 * (j 1).val
    rw [e3, e4]

/-- What point t writes back is block t of the bias step of the two input arrays. -/
theorem flushed_eq (c : Dev nD) (t : Fin cfg2.N) :
    (dat2 V c).flushed 2 t
      = ((cfg2.win 2).blk t).view.read (Elt Ideal) (addRow (F := Ideal) (V c main_v59) (V c main_v60)) := by
  show (cfg2.win 2).cut (grid2.coords t) ((dat2 V c).after 2 t) = _
  rw [after2_2]
  unfold out2_2
  rw [View.canon_unit_zero hz]
  simp only [View.ld_unit_zero (S := S10000x64) hz, View.ld_unit_zero (S := S1x64) hz]
  funext j
  show k2_pay1 (iblk2 V c 0 t) (iblk2 V c 1 t) j
    = addRow (F := Ideal) (V c main_v59) (V c main_v60) (((cfg2.win 2).blk t).view.emb j)
  refine (pay_apply _ _ j).trans ?_
  refine Eq.trans ?_ (addRow_apply _ _ _).symm
  exact congrArg₂ (· + ·) (a_read V c t j) (b_read V c t j)

/-- An entry of the output array is in point t's block iff its row is among the block's 10000 rows. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v61).slice (win2_2.rect t)).set ↔ _
  rw [View.set_slice_whole, Rect.mem_set_unit]
  exact Iff.rfl

/-- The ten blocks tile the output: row r lies in block r / 10000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 64 ≤ (i 1).val ∧ (i 1).val < win2_2.index t (1 : Fin 2) * 64 + 64
    omega

/-- The output array after the region: the first input array with the row added to every row. -/
theorem array_eq (c : Dev nD) :
    (dat2 V c).arrAt 2 cfg2.N = addRow (F := Ideal) (V c main_v59) (V c main_v60) :=
  (dat2 V c).arrAt_eq_of_cover 2 _ (fun t _ => flushed_eq V c t) (cover)

end Cert.Gcn.Region2

end
-- ==== Proof.Walk.lean ====
/- The kernel program's buffers at each boundary of its run, read back to the six argument arrays. Between the three
   pallas_calls the program applies, operation by operation, the pieces the specification names: before the first, the
   two index vectors, the degree's inverse square root and the edge weights, and the transposed first weight matrix;
   between the calls, a propagation step over the first (second) call's output, the transposed second weight matrix and
   the bias rows as 1 x 64 arrays. Each call's output array is the whole-array map of its input arrays. Walking the
   boundaries in order, the result buffer ends holding the network of the six arguments. The host stretches are read for
   any float family; the three calls' outputs at the extended reals. -/
import proofs.«409012_j68178310856719_3_alg».proof.Proof.Gen.KernelIdeal.Frame
import proofs.«409012_j68178310856719_3_alg».proof.Proof.Spec
import proofs.«409012_j68178310856719_3_alg».proof.Proof.Region0
import proofs.«409012_j68178310856719_3_alg».proof.Proof.Region1
import proofs.«409012_j68178310856719_3_alg».proof.Proof.Region2
import Idealize.ShloMosaic.Lib.StableHlo.Run
import Idealize.ShloMosaic.Lib.ValueLayout

set_option maxRecDepth 16384

noncomputable section

namespace Cert.Gcn.Walk

open Cert.KernelIdeal Cert.KernelIdeal.Gen
open Idealize.ShloMosaic Idealize.ShloMosaic.TcCoe Idealize.SL.Sem Idealize.ShloMosaic.StableHlo

/-- A vector of 64 entries as a 1 x 64 array: by a reshape or by a broadcast along a new leading axis, the same array
    (entry (0, q) is entry q either way). -/
theorem row_of_vector {α : Type} (b : (⟨1, ![64]⟩ : Shape).Idx → α) (h1 : (⟨1, ![64]⟩ : Shape).ShapeCasts ⟨2, ![1, 64]⟩)
    (h2 : (⟨1, ![64]⟩ : Shape).BroadcastsInDim ⟨2, ![1, 64]⟩ (![1] : Fin 1 → Fin 2)) :
    shapeCast ⟨2, ![1, 64]⟩ b h1 = broadcastInDim ⟨2, ![1, 64]⟩ ![1] h2 b := by
  funext i
  obtain ⟨u, q, rfl⟩ : ∃ (u : Fin 1) (q : Fin 64), i = ValueIdx.ix2 u q := ⟨i 0, i 1, ValueIdx.eq_ix2 i⟩
  refine (ValueIdx.shapeCast_a_1a_apply b h1 u q).trans ?_
  refine (broadcastInDim_apply _ h2 b (ValueIdx.ix2 u q) (ValueIdx.ix1 q) fun a => ?_).symm
  match a with
  | ⟨0, _⟩ =>
    show q.val = if (64 : Nat) = 1 then 0 else q.val
    rw [if_neg (by decide)]

/-! ## The host stretches: any float family -/

section Host

variable {F : FTy → Type} [FloatOps F]
variable (m : (ℓ : Loc nD τ sig) → Buf (Elt F) ℓ) (ρ : Dev nD → PrngReg)

/-! ### Before the first call, from the launch -/

/-- At the first call's entry the source vector is in place. -/
theorem w3_src (c : Dev nD) : W3 m ρ c (Proc.devRef .tc main_v3) = srcIdx (m ((c : Thread nD τ).loc main_arg1)) := by
  show StableHlo.after hostOps0_2 (StableHlo.after hostOps0_1 (StableHlo.after hostOps0 (W0 m ρ c))) (Proc.devRef .tc main_v3) = _
  after_results_simp <;> (unfold srcIdx; rfl)

/-- At the first call's entry the target vector is in place. -/
theorem w3_dst (c : Dev nD) : W3 m ρ c (Proc.devRef .tc main_v6) = dstIdx (m ((c : Thread nD τ).loc main_arg1)) := by
  show StableHlo.after hostOps0_2 (StableHlo.after hostOps0_1 (StableHlo.after hostOps0 (W0 m ρ c))) (Proc.devRef .tc main_v6) = _
  after_results_simp <;> (unfold dstIdx; rfl)

/-- At the first call's entry the edge weights are in place, as a column. -/
theorem w3_wt (c : Dev nD) : W3 m ρ c (Proc.devRef .tc main_v30) = edgeWeight (F := F) (srcIdx (m ((c : Thread nD τ).loc main_arg1))) (dstIdx (m ((c : Thread nD τ).loc main_arg1))) := by
  show StableHlo.after hostOps0_2 (StableHlo.after hostOps0_1 (StableHlo.after hostOps0 (W0 m ρ c))) (Proc.devRef .tc main_v30) = _
  after_results_simp <;> (unfold edgeWeight invSqrtDegree degree wrapIdx srcIdx dstIdx; rfl)

/-- At the first call's entry the first weight matrix is transposed. -/
theorem w3_wT1 (c : Dev nD) : W3 m ρ c (Proc.devRef .tc main_v31) = (transpose S64x64 [1, 0] (m ((c : Thread nD τ).loc main_arg2)) transposes_S64x64_S64x64_1_0) := by
  show StableHlo.after hostOps0_2 (StableHlo.after hostOps0_1 (StableHlo.after hostOps0 (W0 m ρ c))) (Proc.devRef .tc main_v31) = _
  after_results_simp <;> rfl

/-- The features are as launched. -/
theorem w3_x (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl

/-- The first bias is as launched. -/
theorem w3_b1 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl

/-- The second weight matrix is as launched. -/
theorem w3_w2 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl

/-- The second bias is as launched. -/
theorem w3_b2 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl

/-! ### Between the first and the second call, over the first call's exit contents -/

/-- The propagation step over the first call's output. -/
theorem s1_agg (c : Dev nD) : W5 m ρ c (Proc.devRef .tc main_v44) = propagate (F := F) (W4 m ρ c (Proc.devRef .tc main_v3)) (W4 m ρ c (Proc.devRef .tc main_v6)) (W4 m ρ c (Proc.devRef .tc main_v30)) (W4 m ρ c (Proc.devRef .tc main_v32)) := by
  show StableHlo.after hostOps1 (W4 m ρ c) (Proc.devRef .tc main_v44) = _
  after_results_simp <;> (unfold propagate wrapIdx; rfl)

/-- The second weight matrix, transposed. -/
theorem s1_wT (c : Dev nD) : W5 m ρ c (Proc.devRef .tc main_v45) = transpose S64x64 [1, 0] (W4 m ρ c (Proc.devRef .tc main_arg4)) transposes_S64x64_S64x64_1_0 := by
  show StableHlo.after hostOps1 (W4 m ρ c) (Proc.devRef .tc main_v45) = _
  after_results_simp <;> rfl

/-- The first bias as a 1 x 64 array. -/
theorem s1_b (c : Dev nD) : W5 m ρ c (Proc.devRef .tc main_v46) = shapeCast S1x64 (W4 m ρ c (Proc.devRef .tc main_arg3)) shapeCasts_S64_S1x64 := by
  show StableHlo.after hostOps1 (W4 m ρ c) (Proc.devRef .tc main_v46) = _
  after_results_simp <;> rfl

/-- This stretch leaves main_v3 alone. -/
theorem s1_keep_v3 (c : Dev nD) : W5 m ρ c (Proc.devRef .tc main_v3) = (W4 m ρ c (Proc.devRef .tc main_v3)) := by
  show StableHlo.after hostOps1 (W4 m ρ c) (Proc.devRef .tc main_v3) = _
  after_results_simp <;> rfl

/-- This stretch leaves main_v6 alone. -/
theorem s1_keep_v6 (c : Dev nD) : W5 m ρ c (Proc.devRef .tc main_v6) = (W4 m ρ c (Proc.devRef .tc main_v6)) := by
  show StableHlo.after hostOps1 (W4 m ρ c) (Proc.devRef .tc main_v6) = _
  after_results_simp <;> rfl

/-- This stretch leaves main_v30 alone. -/
theorem s1_keep_v30 (c : Dev nD) : W5 m ρ c (Proc.devRef .tc main_v30) = (W4 m ρ c (Proc.devRef .tc main_v30)) := by
  show StableHlo.after hostOps1 (W4 m ρ c) (Proc.devRef .tc main_v30) = _
  after_results_simp <;> rfl

/-- This stretch leaves main_arg5 alone. -/
theorem s1_keep_arg5 (c : Dev nD) : W5 m ρ c (Proc.devRef .tc main_arg5) = (W4 m ρ c (Proc.devRef .tc main_arg5)) := by
  show StableHlo.after hostOps1 (W4 m ρ c) (Proc.devRef .tc main_arg5) = _
  after_results_simp <;> rfl

/-! ### Between the second and the third call, over the second call's exit contents -/

/-- The propagation step over the second call's output. -/
theorem s2_agg (c : Dev nD) : W7 m ρ c (Proc.devRef .tc main_v59) = propagate (F := F) (W6 m ρ c (Proc.devRef .tc main_v3)) (W6 m ρ c (Proc.devRef .tc main_v6)) (W6 m ρ c (Proc.devRef .tc main_v30)) (W6 m ρ c (Proc.devRef .tc main_v47)) := by
  show StableHlo.after hostOps2 (W6 m ρ c) (Proc.devRef .tc main_v59) = _
  after_results_simp <;> (unfold propagate wrapIdx; rfl)

/-- The second bias as a 1 x 64 array. -/
theorem s2_b (c : Dev nD) : W7 m ρ c (Proc.devRef .tc main_v60) = shapeCast S1x64 (W6 m ρ c (Proc.devRef .tc main_arg5)) shapeCasts_S64_S1x64 := by
  show StableHlo.after hostOps2 (W6 m ρ c) (Proc.devRef .tc main_v60) = _
  after_results_simp <;> rfl

end Host

/-! ## The run at the extended reals -/

section Run

variable (m : (ℓ : Loc nD τ sig) → Buf (Elt Ideal) ℓ) (ρ : Dev nD → PrngReg)

/-- The first call's output: the linear map of the features and the transposed first weight matrix. -/
theorem w4_lin (c : Dev nD) : W4 m ρ c (Proc.devRef .tc main_v32) = linear (F := Ideal) (m ((c : Thread nD τ).loc main_arg0)) (transpose S64x64 [1, 0] (m ((c : Thread nD τ).loc main_arg2)) transposes_S64x64_S64x64_1_0) := by
  refine (W4_arr m ρ c 2).trans ?_
  refine (Region0.array_eq (V3 m ρ) c).trans ?_
  show linear (F := Ideal) (W3 m ρ c (Proc.devRef .tc main_arg0)) (W3 m ρ c (Proc.devRef .tc main_v31)) = _
  rw [w3_x, w3_wT1]

theorem w4_src (c : Dev nD) : W4 m ρ c (Proc.devRef .tc main_v3) = srcIdx (m ((c : Thread nD τ).loc main_arg1)) :=
  (W4_of_ne m ρ c main_v3 (by decide)).trans (w3_src m ρ c)
theorem w4_dst (c : Dev nD) : W4 m ρ c (Proc.devRef .tc main_v6) = dstIdx (m ((c : Thread nD τ).loc main_arg1)) :=
  (W4_of_ne m ρ c main_v6 (by decide)).trans (w3_dst m ρ c)
theorem w4_wt (c : Dev nD) : W4 m ρ c (Proc.devRef .tc main_v30) = edgeWeight (F := Ideal) (srcIdx (m ((c : Thread nD τ).loc main_arg1))) (dstIdx (m ((c : Thread nD τ).loc main_arg1))) :=
  (W4_of_ne m ρ c main_v30 (by decide)).trans (w3_wt m ρ c)
theorem w4_b1 (c : Dev nD) : W4 m ρ c (Proc.devRef .tc main_arg3) = (m ((c : Thread nD τ).loc main_arg3)) :=
  (W4_of_ne m ρ c main_arg3 (by decide)).trans (w3_b1 m ρ c)
theorem w4_w2 (c : Dev nD) : W4 m ρ c (Proc.devRef .tc main_arg4) = (m ((c : Thread nD τ).loc main_arg4)) :=
  (W4_of_ne m ρ c main_arg4 (by decide)).trans (w3_w2 m ρ c)
theorem w4_b2 (c : Dev nD) : W4 m ρ c (Proc.devRef .tc main_arg5) = (m ((c : Thread nD τ).loc main_arg5)) :=
  (W4_of_ne m ρ c main_arg5 (by decide)).trans (w3_b2 m ρ c)

/-- The first propagation step. -/
theorem w5_agg (c : Dev nD) : W5 m ρ c (Proc.devRef .tc main_v44) = propagate (F := Ideal) (srcIdx (m ((c : Thread nD τ).loc main_arg1))) (dstIdx (m ((c : Thread nD τ).loc main_arg1))) (edgeWeight (srcIdx (m ((c : Thread nD τ).loc main_arg1))) (dstIdx (m ((c : Thread nD τ).loc main_arg1)))) (linear (m ((c : Thread nD τ).loc main_arg0)) (transpose S64x64 [1, 0] (m ((c : Thread nD τ).loc main_arg2)) transposes_S64x64_S64x64_1_0)) := by
  refine (s1_agg m ρ c).trans ?_
  rw [w4_src, w4_dst, w4_wt, w4_lin]
theorem w5_wT (c : Dev nD) : W5 m ρ c (Proc.devRef .tc main_v45) = transpose S64x64 [1, 0] (m ((c : Thread nD τ).loc main_arg4)) transposes_S64x64_S64x64_1_0 := by
  refine (s1_wT m ρ c).trans ?_
  rw [w4_w2]
theorem w5_b (c : Dev nD) : W5 m ρ c (Proc.devRef .tc main_v46) = broadcastInDim Cert.ReferenceIdeal.S1x64 ![1] Cert.ReferenceIdeal.Gen.bcast_S64_S1x64_1 (m ((c : Thread nD τ).loc main_arg3)) := by
  refine (s1_b m ρ c).trans ?_
  rw [w4_b1]
  exact row_of_vector _ _ _
theorem w5_src (c : Dev nD) : W5 m ρ c (Proc.devRef .tc main_v3) = srcIdx (m ((c : Thread nD τ).loc main_arg1)) := (s1_keep_v3 m ρ c).trans (w4_src m ρ c)
theorem w5_dst (c : Dev nD) : W5 m ρ c (Proc.devRef .tc main_v6) = dstIdx (m ((c : Thread nD τ).loc main_arg1)) := (s1_keep_v6 m ρ c).trans (w4_dst m ρ c)
theorem w5_wt (c : Dev nD) : W5 m ρ c (Proc.devRef .tc main_v30) = edgeWeight (F := Ideal) (srcIdx (m ((c : Thread nD τ).loc main_arg1))) (dstIdx (m ((c : Thread nD τ).loc main_arg1))) := (s1_keep_v30 m ρ c).trans (w4_wt m ρ c)
theorem w5_b2 (c : Dev nD) : W5 m ρ c (Proc.devRef .tc main_arg5) = (m ((c : Thread nD τ).loc main_arg5)) := (s1_keep_arg5 m ρ c).trans (w4_b2 m ρ c)

/-- The second call's output: bias, cut at zero and the second linear map, over the first propagation step. -/
theorem w6_hid (c : Dev nD) : W6 m ρ c (Proc.devRef .tc main_v47) = linear (F := Ideal) (relu (addRow (propagate (srcIdx (m ((c : Thread nD τ).loc main_arg1))) (dstIdx (m ((c : Thread nD τ).loc main_arg1))) (edgeWeight (srcIdx (m ((c : Thread nD τ).loc main_arg1))) (dstIdx (m ((c : Thread nD τ).loc main_arg1)))) (linear (m ((c : Thread nD τ).loc main_arg0)) (transpose S64x64 [1, 0] (m ((c : Thread nD τ).loc main_arg2)) transposes_S64x64_S64x64_1_0))) (broadcastInDim Cert.ReferenceIdeal.S1x64 ![1] Cert.ReferenceIdeal.Gen.bcast_S64_S1x64_1 (m ((c : Thread nD τ).loc main_arg3))))) (transpose S64x64 [1, 0] (m ((c : Thread nD τ).loc main_arg4)) transposes_S64x64_S64x64_1_0) := by
  refine (W6_arr m ρ c 3).trans ?_
  refine (Region1.array_eq (V5 m ρ) c).trans ?_
  show linear (F := Ideal) (relu (addRow (W5 m ρ c (Proc.devRef .tc main_v44)) (W5 m ρ c (Proc.devRef .tc main_v46)))) (W5 m ρ c (Proc.devRef .tc main_v45)) = _
  rw [w5_agg, w5_b, w5_wT]

theorem w6_src (c : Dev nD) : W6 m ρ c (Proc.devRef .tc main_v3) = srcIdx (m ((c : Thread nD τ).loc main_arg1)) := (W6_of_ne m ρ c main_v3 (by decide)).trans (w5_src m ρ c)
theorem w6_dst (c : Dev nD) : W6 m ρ c (Proc.devRef .tc main_v6) = dstIdx (m ((c : Thread nD τ).loc main_arg1)) := (W6_of_ne m ρ c main_v6 (by decide)).trans (w5_dst m ρ c)
theorem w6_wt (c : Dev nD) : W6 m ρ c (Proc.devRef .tc main_v30) = edgeWeight (F := Ideal) (srcIdx (m ((c : Thread nD τ).loc main_arg1))) (dstIdx (m ((c : Thread nD τ).loc main_arg1))) := (W6_of_ne m ρ c main_v30 (by decide)).trans (w5_wt m ρ c)
theorem w6_b2 (c : Dev nD) : W6 m ρ c (Proc.devRef .tc main_arg5) = (m ((c : Thread nD τ).loc main_arg5)) := (W6_of_ne m ρ c main_arg5 (by decide)).trans (w5_b2 m ρ c)

/-- The second propagation step. -/
theorem w7_agg (c : Dev nD) : W7 m ρ c (Proc.devRef .tc main_v59) = propagate (F := Ideal) (srcIdx (m ((c : Thread nD τ).loc main_arg1))) (dstIdx (m ((c : Thread nD τ).loc main_arg1))) (edgeWeight (srcIdx (m ((c : Thread nD τ).loc main_arg1))) (dstIdx (m ((c : Thread nD τ).loc main_arg1)))) (linear (relu (addRow (propagate (srcIdx (m ((c : Thread nD τ).loc main_arg1))) (dstIdx (m ((c : Thread nD τ).loc main_arg1))) (edgeWeight (srcIdx (m ((c : Thread nD τ).loc main_arg1))) (dstIdx (m ((c : Thread nD τ).loc main_arg1)))) (linear (m ((c : Thread nD τ).loc main_arg0)) (transpose S64x64 [1, 0] (m ((c : Thread nD τ).loc main_arg2)) transposes_S64x64_S64x64_1_0))) (broadcastInDim Cert.ReferenceIdeal.S1x64 ![1] Cert.ReferenceIdeal.Gen.bcast_S64_S1x64_1 (m ((c : Thread nD τ).loc main_arg3))))) (transpose S64x64 [1, 0] (m ((c : Thread nD τ).loc main_arg4)) transposes_S64x64_S64x64_1_0)) := by
  refine (s2_agg m ρ c).trans ?_
  rw [w6_src, w6_dst, w6_wt, w6_hid]
theorem w7_b (c : Dev nD) : W7 m ρ c (Proc.devRef .tc main_v60) = broadcastInDim Cert.ReferenceIdeal.S1x64 ![1] Cert.ReferenceIdeal.Gen.bcast_S64_S1x64_1 (m ((c : Thread nD τ).loc main_arg5)) := by
  refine (s2_b m ρ c).trans ?_
  rw [w6_b2]
  exact row_of_vector _ _ _

/-- The third call's output, which is the program's result: the network of the six argument arrays. -/
theorem result_eq_gcn (c : Dev nD) :
    W8 m ρ c (Proc.devRef .tc main_v61) = gcn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ?_
  refine (Region2.array_eq (V7 m ρ) c).trans ?_
  show addRow (F := Ideal) (W7 m ρ c (Proc.devRef .tc main_v59)) (W7 m ρ c (Proc.devRef .tc main_v60)) = _
  rw [w7_agg, w7_b]
  unfold gcn
  rfl

end Run

end Cert.Gcn.Walk

end
-- ==== Proof.lean ====
/- The kernel computes a two-layer graph convolution in three row-tiled calls (a matrix product; a bias, a cut at zero
   and a matrix product; a bias) with the gathers, the scaling by the edge weights and the scatter-additions between
   them done on the host; the reference does the same computation with whole-array operations. Over the extended reals
   both leave in their result buffer ONE function of the six argument arrays, the network `Cert.Gcn.gcn`:
   - the reference, because its operations are the pieces that function is made of (Proof/RefIsGcn.lean, over its run
     read back, Proof/RefRun.lean);
   - the kernel, because each call writes back, block by block, the ten row blocks of the corresponding whole-array map
     of its input arrays (Proof/Region0.lean, Region1.lean, Region2.lean: a block's matrix product is the sum over the
     64 contracted entries, which does not see how many rows the block has; Proof/DotRows.lean, BiasRows.lean), and the
     host operations between the calls are the same pieces (Proof/Walk.lean, over the run with its result named,
     Proof/KernelRun.lean).
   No law of arithmetic beyond reindexing a finite sum is used, so the finiteness of the inputs is never opened. The
   kernel's two frames are the generated ones; the reference's is its run with the result dropped; nothing was rewritten
   by the ideal pass, so there is nothing to preserve. -/
import proofs.«409012_j68178310856719_3_alg».proof.Defs
import proofs.«409012_j68178310856719_3_alg».proof.Proof.Gen.Kernel
import proofs.«409012_j68178310856719_3_alg».proof.Proof.Gen.Kernel.Frame
import proofs.«409012_j68178310856719_3_alg».proof.Proof.Gen.KernelIdeal
import proofs.«409012_j68178310856719_3_alg».proof.Proof.Gen.KernelIdeal.Frame
import proofs.«409012_j68178310856719_3_alg».proof.Proof.Gen.ReferenceIdeal
import proofs.«409012_j68178310856719_3_alg».proof.Proof.Gen.Pre_finite_inputs
import proofs.«409012_j68178310856719_3_alg».proof.Proof.KernelRun
import proofs.«409012_j68178310856719_3_alg».proof.Proof.RefRun
import proofs.«409012_j68178310856719_3_alg».proof.Proof.RefIsGcn
import proofs.«409012_j68178310856719_3_alg».proof.Proof.Walk
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunValue.run (F := Ideal) m ρ)

theorem preserves : Cert.preserves_Kernel_KernelIdeal := trivial

/-- Both runs end with the result buffer at the network of the argument arrays, and the arguments agree. -/
theorem algebraic : Cert.algebraic_KernelIdeal_ReferenceIdeal := by
  intro m ρ m' ρ' _ hagree
  refine ⟨fun c => Cert.Gcn.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gcn.Walk.result_eq_gcn m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.RunValue.run (F := Ideal) m' ρ')
    rw [Cert.Gcn.ref_eq_gcn, (hagree c).1, (hagree c).2.1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
